-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x128x128 : Shape := ⟨3, ![4096, 128, 128]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x128x128 : S_.BroadcastsInDim S4096x128x128 (![] : Fin 0 → Fin S4096x128x128.rank)
  reducesTo_S4096x128x128_S_d0_1_2 : S4096x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x128 .f32) (main_arg1 : FVec F S4096x128x128 .f32) (main_arg2 : FVec F S4096x128 .f32) (main_arg3 : FVec F S128x128 .f32) (main_arg4 : FVec F S128 .f32) (main_arg5 : FVec F S128x128 .f32) (main_arg6 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4096x128 : Shape := ⟨2, ![4096, 128]⟩
abbrev S4096x128x128 : Shape := ⟨3, ![4096, 128, 128]⟩
abbrev S128x128 : Shape := ⟨2, ![128, 128]⟩
abbrev S128 : Shape := ⟨1, ![128]⟩
abbrev S64x128 : Shape := ⟨2, ![64, 128]⟩
abbrev S64x128x128 : Shape := ⟨3, ![64, 128, 128]⟩
abbrev S1x128 : Shape := ⟨2, ![1, 128]⟩
abbrev S64x1x128 : Shape := ⟨3, ![64, 1, 128]⟩
abbrev S64x128x1 : Shape := ⟨3, ![64, 128, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4096x128x128, .f32⟩
  | .local _ .vmem, ⟨0, _⟩ => ⟨S64x128, .f32⟩
  | .local _ .vmem, ⟨1, _⟩ => ⟨S64x128, .f32⟩
  | .local _ .vmem, ⟨2, _⟩ => ⟨S64x128x128, .f32⟩
  | .local _ .vmem, ⟨3, _⟩ => ⟨S64x128x128, .f32⟩
  | .local _ .vmem, ⟨4, _⟩ => ⟨S64x128, .f32⟩
  | .local _ .vmem, ⟨5, _⟩ => ⟨S64x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S64x128x128, .f32⟩
  | .local _ .vmem, ⟨11, _⟩ => ⟨S64x128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S64x128x128_S64x128x128_0_0_0 : ∀ a, (![0, 0, 0] : Fin 3 → Nat) a + S64x128x128.size a ≤ S64x128x128.size a
  h_S64x128x128 : 0 < S64x128x128.numel
  shapeCasts_S64x128_S64x1x128 : S64x128.ShapeCasts S64x1x128
  shapeCasts_S64x128_S64x128x1 : S64x128.ShapeCasts S64x128x1
  broadcasts_S64x1x128_S64x128x128 : S64x1x128.Broadcasts S64x128x128
  broadcasts_S64x128x1_S64x128x128 : S64x128x1.Broadcasts S64x128x128
  dot_S64x128_S128x128_S64x128_1_1_0_0_n_n_wf : DotDims.WF S64x128 S128x128 S64x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S4096x128x128.size a
  hwx0_1 : ∀ i : grid0.Coords, EltTy.bits .f32 = 32 ∨ (Rect.block (s := S4096x128x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .f32 = 32 ∨ (Rect.block (s := S4096x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128x128.size a ≤ S4096x128x128.size a
  hwx0_7 : ∀ i : grid0.Coords, EltTy.bits .f32 = 32 ∨ (Rect.block (s := S4096x128x128) S64x128x128.size (cc0_transform_7 i) (hinb0_7 i)).WholeWords (EltTy.packing .f32)

variable [Facts₀]

def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x128x128 : Shape := ⟨3, ![4096, 128, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S4096x1x128 : Shape := ⟨3, ![4096, 1, 128]⟩
abbrev S4096x128x1 : Shape := ⟨3, ![4096, 128, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128x128, .f32⟩
  | .hbm, ⟨2, _⟩ => ⟨S4096x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S4096x128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S128x128, .f32⟩
  | .hbm, ⟨21, _⟩ => ⟨S4096x128, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x1x128, .f32⟩
  | .hbm, ⟨27, _⟩ => ⟨S4096x128x1, .f32⟩
  | .hbm, ⟨28, _⟩ => ⟨S4096x128x128, .f32⟩
  | .hbm, ⟨29, _⟩ => ⟨S4096x128x128, .f32⟩
  | .hbm, ⟨30, _⟩ => ⟨S4096x128x128, .f32⟩
  | .hbm, ⟨31, _⟩ => ⟨S4096x1x128, .f32⟩
  | .hbm, ⟨32, _⟩ => ⟨S4096x128x1, .f32⟩
  | .hbm, ⟨33, _⟩ => ⟨S4096x128x128, .f32⟩
  | .hbm, ⟨34, _⟩ => ⟨S4096x128x128, .f32⟩
  | .hbm, ⟨35, _⟩ => ⟨S4096x128x128, .f32⟩
  | .hbm, ⟨36, _⟩ => ⟨S_, .f32⟩
  | .hbm, ⟨37, _⟩ => ⟨S4096x128x128, .f32⟩
  | .hbm, ⟨38, _⟩ => ⟨S4096x128x128, .f32⟩
  | .hbm, ⟨39, _⟩ => ⟨S4096x128x128, .f32⟩
  | .hbm, ⟨40, _⟩ => ⟨S4096x128x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S4096x128_S4096x1x128_0_2 : S4096x128.BroadcastsInDim S4096x1x128 (![0, 2] : Fin 2 → Fin S4096x1x128.rank)
  bcast_S4096x128_S4096x128x1_0_1 : S4096x128.BroadcastsInDim S4096x128x1 (![0, 1] : Fin 2 → Fin S4096x128x1.rank)
  bcast_S4096x1x128_S4096x128x128_0_1_2 : S4096x1x128.BroadcastsInDim S4096x128x128 (![0, 1, 2] : Fin 3 → Fin S4096x128x128.rank)
  bcast_S4096x128x1_S4096x128x128_0_1_2 : S4096x128x1.BroadcastsInDim S4096x128x128 (![0, 1, 2] : Fin 3 → Fin S4096x128x128.rank)
  bcast_S_S4096x128x128 : S_.BroadcastsInDim S4096x128x128 (![] : Fin 0 → Fin S4096x128x128.rank)
  dot_S4096x128_S128x128_S4096x128_1_0_0_1_n_n_wf : DotDims.WF S4096x128 S128x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.MemoryWrite.lean ====
/-
  The erase-and-add write of a slot memory, as ONE function of its seven arguments over the extended reals.

  For a batch row `r`, a memory slot `s` and a feature `d`,

      new(r, s, d) = mem(r, s, d) · (1 − σ(ℓₑ(r, d)) · w(r, s)) + tanh(ℓₐ(r, d)) · w(r, s),

  where `ℓ(r, d) = ∑ₖ x(r, k) · W(d, k) + b(d)` is a linear layer whose weight is stored [out, in] (the sum runs over
  the weight's SECOND axis), `σ` is the logistic function `1 / (1 + e⁻ᵗ)`, and `w(r, s)` is the write weight of slot `s`.
  The number of batch rows `R` is a parameter: the same formula is read on the whole batch and on a run of
  consecutive rows of it, and row `r` of the result depends on row `r` of the batch-major arguments only
  (`written_congr`).
-/
import Idealize.ShloMosaic.PureOps.Ideal
import Idealize.ShloMosaic.Lib.ValueIdx

noncomputable section

namespace Cert.MemoryWrite

open Idealize.ShloMosaic Idealize.ShloMosaic.ValueIdx

/-- A linear layer at row `r`, output feature `d`: `∑ₖ x(r, k) · W(d, k) + b(d)`, the weight stored [out, in]. -/
def linear {R : Nat} (x : FVec Ideal ⟨2, ![R, 128]⟩ .f32) (W : FVec Ideal ⟨2, ![128, 128]⟩ .f32)
    (b : FVec Ideal ⟨1, ![128]⟩ .f32) (r : Fin R) (d : Fin 128) : EReal :=
  ∑ k : Fin 128, x (ix2 r k) * W (ix2 d k) + b (ix1 d)

/-- The memory after the write: each entry scaled by one minus its erase gate times the slot's write weight, plus the
    add signal times the same write weight. -/
def written {R : Nat} (x : FVec Ideal ⟨2, ![R, 128]⟩ .f32) (mem : FVec Ideal ⟨3, ![R, 128, 128]⟩ .f32)
    (w : FVec Ideal ⟨2, ![R, 128]⟩ .f32) (We : FVec Ideal ⟨2, ![128, 128]⟩ .f32) (be : FVec Ideal ⟨1, ![128]⟩ .f32)
    (Wa : FVec Ideal ⟨2, ![128, 128]⟩ .f32) (ba : FVec Ideal ⟨1, ![128]⟩ .f32) : FVec Ideal ⟨3, ![R, 128, 128]⟩ .f32 :=
  fun i => mem i * (1 - Ideal.logistic (linear x We be (i 0) (i 2)) * w (ix2 (i 0) (i 1)))
    + Ideal.tanh (linear x Wa ba (i 0) (i 2)) * w (ix2 (i 0) (i 1))

/-- An entry of the result reads its own row of the control input, its own entry of the memory and its own row's write
    weight: two batches that agree there (at possibly different row numbers) give the same entry. -/
theorem written_congr {R R' : Nat} (x : FVec Ideal ⟨2, ![R, 128]⟩ .f32) (mem : FVec Ideal ⟨3, ![R, 128, 128]⟩ .f32)
    (w : FVec Ideal ⟨2, ![R, 128]⟩ .f32) (x' : FVec Ideal ⟨2, ![R', 128]⟩ .f32) (mem' : FVec Ideal ⟨3, ![R', 128, 128]⟩ .f32)
    (w' : FVec Ideal ⟨2, ![R', 128]⟩ .f32) (We : FVec Ideal ⟨2, ![128, 128]⟩ .f32) (be : FVec Ideal ⟨1, ![128]⟩ .f32)
    (Wa : FVec Ideal ⟨2, ![128, 128]⟩ .f32) (ba : FVec Ideal ⟨1, ![128]⟩ .f32)
    (i : (⟨3, ![R, 128, 128]⟩ : Shape).Idx) (i' : (⟨3, ![R', 128, 128]⟩ : Shape).Idx)
    (hx : ∀ k : Fin 128, x (ix2 (i 0) k) = x' (ix2 (i' 0) k)) (hmem : mem i = mem' i')
    (hw : w (ix2 (i 0) (i 1)) = w' (ix2 (i' 0) (i' 1))) (hd : i 2 = i' 2) :
    written x mem w We be Wa ba i = written x' mem' w' We be Wa ba i' := by
  unfold written linear
  rw [hmem, hw, hd]
  simp only [hx]

end Cert.MemoryWrite

end
-- ==== Proof.BlockValue.lean ====
/-
  What the kernel body stores for one run of 64 batch rows, entry by entry.

  The body forms two products `x · Wᵀ` on the matrix unit (both operands contracted along their SECOND axis, so the
  weight is used as stored, [out, in]), adds a bias row to each, applies the logistic function to one and `tanh` to the
  other, lays each [64, 128] gate out along the slot axis and the [64, 128] write weights along the feature axis, and
  combines them with the memory block pointwise. Read at `(p, s, d)` this is the erase-and-add formula
  `MemoryWrite.written` of the body's seven loaded blocks, at 64 rows.
-/
import proofs.«142102_j21320217657935_1_alg».proof.Proof.Gen.KernelIdeal.Skeleton
import proofs.«142102_j21320217657935_1_alg».proof.Proof.MemoryWrite
import Idealize.ShloMosaic.PureOps.Ideal.Laws
import Idealize.ShloMosaic.Lib.ValueIdx
import Idealize.ShloMosaic.Lib.Pipeline.Value
import Idealize.ShloMosaic.Lib.IdealHost

noncomputable section

namespace Cert.KernelIdeal.Body

open Cert.KernelIdeal Cert.KernelIdeal.Gen Idealize.ShloMosaic Idealize.ShloMosaic.ValueIdx Cert.MemoryWrite

/-! ## The product `x · Wᵀ` at an element -/

/-- The left operand's row is the output's row. -/
theorem lhs_row (i : S64x128.Idx) (q : dot_S64x128_S128x128_S64x128_1_1_0_0_n_n.contr.Idx) :
    (dot_S64x128_S128x128_S64x128_1_1_0_0_n_n.lhsIdx i q 0).val = (i 0).val := by
  unfold DotDims.lhsIdx
  rw [dif_neg (show ¬(0 : Fin S64x128.rank) ∈ dot_S64x128_S128x128_S64x128_1_1_0_0_n_n.lhsBatch by decide), dif_pos (show (0 : Fin S64x128.rank) ∈ dot_S64x128_S128x128_S64x128_1_1_0_0_n_n.lhsNonContracting by decide)]
  rfl
/-- The left operand's column is the contracted coordinate. -/
theorem lhs_col (i : S64x128.Idx) (q : dot_S64x128_S128x128_S64x128_1_1_0_0_n_n.contr.Idx) :
    (dot_S64x128_S128x128_S64x128_1_1_0_0_n_n.lhsIdx i q 1).val = (q ⟨0, by decide⟩).val :=
  dot_S64x128_S128x128_S64x128_1_1_0_0_n_n.lhsIdx_val_of_single rfl i q
/-- The right operand's row is the output's COLUMN: the weight is stored [out, in]. -/
theorem rhs_row (i : S64x128.Idx) (q : dot_S64x128_S128x128_S64x128_1_1_0_0_n_n.contr.Idx) :
    (dot_S64x128_S128x128_S64x128_1_1_0_0_n_n.rhsIdx i q 0).val = (i 1).val := by
  unfold DotDims.rhsIdx
  rw [dif_neg (show ¬(0 : Fin S128x128.rank) ∈ dot_S64x128_S128x128_S64x128_1_1_0_0_n_n.rhsBatch by decide), dif_pos (show (0 : Fin S128x128.rank) ∈ dot_S64x128_S128x128_S64x128_1_1_0_0_n_n.rhsNonContracting by decide)]
  rfl
/-- The right operand's column is the contracted coordinate. -/
theorem rhs_col (i : S64x128.Idx) (q : dot_S64x128_S128x128_S64x128_1_1_0_0_n_n.contr.Idx) :
    (dot_S64x128_S128x128_S64x128_1_1_0_0_n_n.rhsIdx i q 1).val = (q ⟨0, by decide⟩).val :=
  dot_S64x128_S128x128_S64x128_1_1_0_0_n_n.rhsIdx_val_of_single rfl i q

/-- The product into the zero accumulator at `(p, d)`: `∑ₖ a(p, k) · b(d, k)`. -/
theorem product_apply {φ₁ φ₂ : FTy} (a : FVec Ideal S64x128 φ₁) (b : FVec Ideal S128x128 φ₂) (p : Fin 64) (d : Fin 128) :
    matmul dot_S64x128_S128x128_S64x128_1_1_0_0_n_n none a b (constant (F := Ideal) S64x128 .f32 0x00000000#32) (ix2 p d)
      = ∑ k : Fin 128, a (ix2 p k) * b (ix2 d k) := by
  show FloatOps.matmul dot_S64x128_S128x128_S64x128_1_1_0_0_n_n none a b (constant (F := Ideal) S64x128 .f32 0x00000000#32) (ix2 p d) = _
  rw [Ideal.matmul_constant_zero_apply, ← Equiv.sum_comp (contrEquiv1 dot_S64x128_S128x128_S64x128_1_1_0_0_n_n 128 rfl rfl).symm]
  refine Finset.sum_congr rfl fun k _ => ?_
  have hk := contrEquiv1_symm_val dot_S64x128_S128x128_S64x128_1_1_0_0_n_n 128 rfl rfl k
  have el : dot_S64x128_S128x128_S64x128_1_1_0_0_n_n.lhsIdx (ix2 p d) ((contrEquiv1 dot_S64x128_S128x128_S64x128_1_1_0_0_n_n 128 rfl rfl).symm k) = ix2 p k := funext fun a => Fin.ext (by
    match a with
    | ⟨0, _⟩ => exact lhs_row _ _
    | ⟨1, _⟩ => exact (lhs_col _ _).trans hk)
  have er : dot_S64x128_S128x128_S64x128_1_1_0_0_n_n.rhsIdx (ix2 p d) ((contrEquiv1 dot_S64x128_S128x128_S64x128_1_1_0_0_n_n 128 rfl rfl).symm k) = ix2 d k := funext fun a => Fin.ext (by
    match a with
    | ⟨0, _⟩ => exact rhs_row _ _
    | ⟨1, _⟩ => exact (rhs_col _ _).trans hk)
  rw [el, er]

/-! ## The three layouts -/

/-- A length-128 bias laid out as a row and repeated down the 64 rows reads, at `(p, d)`, the bias at `d`. -/
theorem biasRows_apply {α : Type} (b : S128.Idx → α) (p : Fin 64) (d : Fin 128) :
    broadcastTo S64x128 (shapeCast S1x128 b shapeCasts_S128_S1x128) broadcasts_S1x128_S64x128 (ix2 p d) = b (ix1 d) := by
  rw [broadcastTo_apply _ broadcasts_S1x128_S64x128 (ix2 p d) (ix2 (0 : Fin 1) d) (fun a => by
    match a with
    | ⟨0, _⟩ => exact (if_pos rfl).symm
    | ⟨1, _⟩ => exact (if_neg (show ¬(128 : Nat) = 1 by decide)).symm)]
  refine shapeCast_apply b shapeCasts_S128_S1x128 (ix2 (0 : Fin 1) d) (ix1 d) ?_
  rw [Shape.rowMajor_val_one, Shape.rowMajor_val_two]
  show d.val = 0 * 128 + d.val
  omega

/-- A [64, 128] gate given a unit slot axis and repeated over the 128 slots reads, at `(p, s, d)`, the gate at `(p, d)`. -/
theorem overSlots_apply {α : Type} (g : S64x128.Idx → α) (p : Fin 64) (s d : Fin 128) :
    broadcastTo S64x128x128 (shapeCast S64x1x128 g shapeCasts_S64x128_S64x1x128) broadcasts_S64x1x128_S64x128x128 (ix3 p s d) = g (ix2 p d) := by
  rw [broadcastTo_apply _ broadcasts_S64x1x128_S64x128x128 (ix3 p s d) (ix3 p (0 : Fin 1) d) (fun a => by
    match a with
    | ⟨0, _⟩ => exact (if_neg (show ¬(64 : Nat) = 1 by decide)).symm
    | ⟨1, _⟩ => exact (if_pos rfl).symm
    | ⟨2, _⟩ => exact (if_neg (show ¬(128 : Nat) = 1 by decide)).symm)]
  refine shapeCast_apply g shapeCasts_S64x128_S64x1x128 (ix3 p (0 : Fin 1) d) (ix2 p d) ?_
  rw [Shape.rowMajor_val_two, Shape.rowMajor_val_three]
  show p.val * 128 + d.val = (p.val * 1 + 0) * 128 + d.val
  omega

/-- The [64, 128] write weights given a unit feature axis and repeated over the 128 features read, at `(p, s, d)`, the
    weight at `(p, s)`. -/
theorem overFeatures_apply {α : Type} (w : S64x128.Idx → α) (p : Fin 64) (s d : Fin 128) :
    broadcastTo S64x128x128 (shapeCast S64x128x1 w shapeCasts_S64x128_S64x128x1) broadcasts_S64x128x1_S64x128x128 (ix3 p s d) = w (ix2 p s) := by
  rw [broadcastTo_apply _ broadcasts_S64x128x1_S64x128x128 (ix3 p s d) (ix3 p s (0 : Fin 1)) (fun a => by
    match a with
    | ⟨0, _⟩ => exact (if_neg (show ¬(64 : Nat) = 1 by decide)).symm
    | ⟨1, _⟩ => exact (if_neg (show ¬(128 : Nat) = 1 by decide)).symm
    | ⟨2, _⟩ => exact (if_pos rfl).symm)]
  refine shapeCast_apply w shapeCasts_S64x128_S64x128x1 (ix3 p s (0 : Fin 1)) (ix2 p s) ?_
  rw [Shape.rowMajor_val_two, Shape.rowMajor_val_three]
  show p.val * 128 + s.val = (p.val * 128 + s.val) * 1 + 0
  omega

/-! ## The stored value -/

/-- The logistic function of a vector, at an index. -/
theorem logistic_apply {s : Shape} {φ : FTy} (a : FVec Ideal s φ) (i : s.Idx) : logistic a i = Ideal.logistic (a i) := rfl
/-- The hyperbolic tangent of a vector, at an index. -/
theorem tanh_apply {s : Shape} {φ : FTy} (a : FVec Ideal s φ) (i : s.Idx) : tanh a i = Ideal.tanh (a i) := rfl

/-- The body's one stored value at `(p, s, d)`: the erase-and-add formula of the seven loaded blocks. The two
    narrowings to bf16 before the products are the identity on the extended reals, and the operation `logistic` is by
    definition `1 / (1 + e⁻ᵗ)`. -/
theorem stored_apply (x : Vec Ideal S64x128 .f32) (We Wa : Vec Ideal S128x128 .f32) (be ba : Vec Ideal S128 .f32)
    (w : Vec Ideal S64x128 .f32) (mem : Vec Ideal S64x128x128 .f32) (p : Fin 64) (s d : Fin 128) :
    k0_pay1 (F := Ideal) x We Wa be ba w mem (ix3 p s d) = written (R := 64) x mem w We be Wa ba (ix3 p s d) := by
  unfold k0_pay1
  simp only [addf_apply, mulf_apply, subf_apply, broadcast_apply, overSlots_apply, overFeatures_apply, logistic_apply,
    tanh_apply, product_apply, biasRows_apply, truncf_apply, Ideal.ofBits_def, Ideal.ofBits_one_f32]
  rfl

end Cert.KernelIdeal.Body

end
-- ==== Proof.WholeArray.lean ====
/-
  From the 64 blocks to the whole result array.

  Grid point `t` works on batch rows `64·t … 64·t + 63`: it reads those rows of the control input, the memory and the
  write weights, and the two weight matrices and the two biases whole; it writes back those rows of the result. A
  result entry depends on its own batch row only, so what point `t` writes back is rows `64·t … 64·t + 63` of the
  erase-and-add formula on the WHOLE argument arrays. Every batch row lies in exactly one such run (`r / 64`), so the
  64 write-backs cover the result array, which therefore ends holding the formula.
-/
import proofs.«142102_j21320217657935_1_alg».proof.Proof.Gen.KernelIdeal.Value
import proofs.«142102_j21320217657935_1_alg».proof.Proof.BlockValue
import Idealize.ShloMosaic.Lib.Pipeline.Value

set_option maxRecDepth 16384

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx Cert.MemoryWrite
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The result array as one function of the seven argument arrays as the region finds them. -/
abbrev result (c : Dev nD) : S4096x128x128.Idx → Elt Ideal .f32 :=
  written (R := 4096) (V m c main_arg0) (V m c main_arg1) (V m c main_arg2) (V m c main_arg3) (V m c main_arg4)
    (V m c main_arg5) (V m c main_arg6)

/-- An entry of the stored block against the formula on whole arrays: if the block's batch-major inputs are the arrays'
    at the matching row, and its weights and biases are the arrays', the stored value at `j` is the formula at `i`. -/
theorem block_entry (X0 : Vec Ideal S64x128 .f32) (X1 : Vec Ideal S64x128x128 .f32) (X2 : Vec Ideal S64x128 .f32)
    (X3 : Vec Ideal S128x128 .f32) (X4 : Vec Ideal S128 .f32) (X5 : Vec Ideal S128x128 .f32) (X6 : Vec Ideal S128 .f32)
    (A0 : FVec Ideal S4096x128 .f32) (A1 : FVec Ideal S4096x128x128 .f32) (A2 : FVec Ideal S4096x128 .f32)
    (A3 : FVec Ideal S128x128 .f32) (A4 : FVec Ideal S128 .f32) (A5 : FVec Ideal S128x128 .f32) (A6 : FVec Ideal S128 .f32)
    (j : S64x128x128.Idx) (i : S4096x128x128.Idx)
    (h0 : ∀ k : Fin 128, X0 (ix2 (j 0) k) = A0 (ix2 (i 0) k)) (h1 : X1 j = A1 i)
    (h2 : X2 (ix2 (j 0) (j 1)) = A2 (ix2 (i 0) (i 1))) (h3 : X3 = A3) (h4 : X4 = A4) (h5 : X5 = A5) (h6 : X6 = A6)
    (hd : j 2 = i 2) :
    k0_pay1 (F := Ideal) X0 X3 X5 X4 X6 X2 X1 j = written (R := 4096) A0 A1 A2 A3 A4 A5 A6 i := by
  subst h3 h4 h5 h6
  obtain ⟨p, s, d, rfl⟩ : ∃ (p : Fin 64) (s d : Fin 128), j = ix3 p s d := ⟨j 0, j 1, j 2, eq_ix3 j⟩
  rw [Body.stored_apply]
  exact written_congr X0 X1 X2 A0 A1 A2 X3 X4 X5 X6 (ix3 p s d) i h0 h1 h2 hd

/-- The block numbers at point `t`: the three batch-major inputs and the output are at block `t` of the batch axis and
    block 0 of every other axis; the weights and biases are at block 0 throughout. -/
theorem block_numbers : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- WHAT POINT `t` WRITES BACK is block `t` of `result`. -/
theorem flushed_eq (c : Dev nD) (t : Fin cfg0.N) :
    (dats m 0 c).flushed 7 t = ((cfg0.win 7).blk t).view.read (Elt Ideal) (result m c) := by
  rw [flushed7]
  unfold out0_7
  rw [View.canon_unit_zero zeros3]
  simp only [View.ld_unit_zero (S := S64x128) zeros2, View.ld_unit_zero (S := S128x128) zeros2,
    View.ld_unit_zero (S := S128) zeros1, View.ld_unit_zero (S := S64x128x128) zeros3]
  obtain ⟨a00, a01, a10, a11, a12, a20, a21, a30, a31, a40, a50, a51, a60, a70, a71, a72⟩ := block_numbers t
  funext j
  show k0_pay1 (F := Ideal) (iblk m c 0 t) (iblk m c 3 t) (iblk m c 5 t) (iblk m c 4 t) (iblk m c 6 t) (iblk m c 2 t) (iblk m c 1 t) j
    = result m c (((cfg0.win 7).blk t).view.emb j)
  refine block_entry (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5) (V m c main_arg6)
    j (((cfg0.win 7).blk t).view.emb j) ?_ ?_ ?_ ?_ ?_ ?_ ?_ ?_
  · intro k
    show V m c main_arg0 (((cfg0.win 0).blk t).view.emb (ix2 (j 0) k)) = V m c main_arg0 (ix2 ((((cfg0.win 7).blk t).view.emb j) 0) k)
    refine congrArg _ (funext fun a => Fin.ext ?_)
    match a with
    | ⟨0, _⟩ => show win0_0.index t (0 : Fin 2) * 64 + 1 * (j 0).val = win0_7.index t (0 : Fin 3) * 64 + 1 * (j 0).val; omega
    | ⟨1, _⟩ => show win0_0.index t (1 : Fin 2) * 128 + 1 * k.val = k.val; omega
  · show V m c main_arg1 (((cfg0.win 1).blk t).view.emb j) = V m c main_arg1 (((cfg0.win 7).blk t).view.emb j)
    refine congrArg _ (funext fun a => Fin.ext ?_)
    match a with
    | ⟨0, _⟩ => show win0_1.index t (0 : Fin 3) * 64 + 1 * (j 0).val = win0_7.index t (0 : Fin 3) * 64 + 1 * (j 0).val; omega
    | ⟨1, _⟩ => show win0_1.index t (1 : Fin 3) * 128 + 1 * (j 1).val = win0_7.index t (1 : Fin 3) * 128 + 1 * (j 1).val; omega
    | ⟨2, _⟩ => show win0_1.index t (2 : Fin 3) * 128 + 1 * (j 2).val = win0_7.index t (2 : Fin 3) * 128 + 1 * (j 2).val; omega
  · show V m c main_arg2 (((cfg0.win 2).blk t).view.emb (ix2 (j 0) (j 1)))
      = V m c main_arg2 (ix2 ((((cfg0.win 7).blk t).view.emb j) 0) ((((cfg0.win 7).blk t).view.emb j) 1))
    refine congrArg _ (funext fun a => Fin.ext ?_)
    match a with
    | ⟨0, _⟩ => show win0_2.index t (0 : Fin 2) * 64 + 1 * (j 0).val = win0_7.index t (0 : Fin 3) * 64 + 1 * (j 0).val; omega
    | ⟨1, _⟩ => show win0_2.index t (1 : Fin 2) * 128 + 1 * (j 1).val = win0_7.index t (1 : Fin 3) * 128 + 1 * (j 1).val; omega
  · funext y
    show V m c main_arg3 (((cfg0.win 3).blk t).view.emb y) = V m c main_arg3 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V m c main_arg4 (((cfg0.win 4).blk t).view.emb y) = V m c main_arg4 y
    refine congrArg _ (funext fun a => Fin.ext ?_)
    match a with
    | ⟨0, _⟩ => show win0_4.index t (0 : Fin 1) * 128 + 1 * (y 0).val = (y 0).val; omega
  · funext y
    show V m c main_arg5 (((cfg0.win 5).blk t).view.emb y) = V m c main_arg5 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  · funext y
    show V m c main_arg6 (((cfg0.win 6).blk t).view.emb y) = V m c main_arg6 y
    refine congrArg _ (funext fun a => Fin.ext ?_)
    match a with
    | ⟨0, _⟩ => show win0_6.index t (0 : Fin 1) * 128 + 1 * (y 0).val = (y 0).val; omega
  · refine Fin.ext ?_
    show (j 2).val = win0_7.index t (2 : Fin 3) * 128 + 1 * (j 2).val
    omega

/-- An index of the result array is in point `t`'s block iff each coordinate is in the block's range on its axis. -/
theorem mem_block (t : Fin cfg0.N) (i : S4096x128x128.Idx) :
    i ∈ ((cfg0.win 7).blk t).view.set ↔ ∀ a : Fin 3, win0_7.index t a * S64x128x128.size a ≤ (i a).val ∧ (i a).val < win0_7.index t a * S64x128x128.size a + S64x128x128.size a := by
  show i ∈ ((View.whole main_v0).slice (win0_7.rect t)).set ↔ _
  rw [View.set_slice_whole, Rect.mem_set_unit]
  exact Iff.rfl

/-- Every run of 64 batch rows is some point's. -/
theorem block_onto : ∀ q : Fin 64, ∃ t : Fin cfg0.N, win0_7.index t = ![q.val, 0, 0] :=
  (by decide +kernel : ∀ q : Fin 64, ∃ t : Fin grid0.N, win0_7.index t = ![q.val, 0, 0])

/-- The 64 write-backs cover the result array: batch row `r` is in the block of the point numbered `r / 64`. -/
theorem covered (i : S4096x128x128.Idx) :
    ∃ t : Fin cfg0.N, (cfg0.win 7).flush t = true ∧ i ∈ ((cfg0.win 7).blk t).view.set := by
  have hi0 : (i 0).val < 4096 := (i 0).isLt
  have hi1 : (i 1).val < 128 := (i 1).isLt
  have hi2 : (i 2).val < 128 := (i 2).isLt
  obtain ⟨t, ht⟩ := block_onto ⟨(i 0).val / 64, by omega⟩
  have q0 : win0_7.index t (0 : Fin 3) = (i 0).val / 64 := congrFun ht 0
  have q1 : win0_7.index t (1 : Fin 3) = 0 := congrFun ht 1
  have q2 : win0_7.index t (2 : Fin 3) = 0 := congrFun ht 2
  refine ⟨t, flush0_7 t, ?_⟩
  rw [mem_block]
  intro a
  match a with
  | ⟨0, _⟩ => show win0_7.index t (0 : Fin 3) * 64 ≤ (i 0).val ∧ (i 0).val < win0_7.index t (0 : Fin 3) * 64 + 64; omega
  | ⟨1, _⟩ => show win0_7.index t (1 : Fin 3) * 128 ≤ (i 1).val ∧ (i 1).val < win0_7.index t (1 : Fin 3) * 128 + 128; omega
  | ⟨2, _⟩ => show win0_7.index t (2 : Fin 3) * 128 ≤ (i 2).val ∧ (i 2).val < win0_7.index t (2 : Fin 3) * 128 + 128; omega

/-- THE RESULT ARRAY after the run is the erase-and-add formula of the argument arrays. -/
theorem final (c : Dev nD) : (dats m 0 c).arrAt 7 cfg0.N = result m c :=
  (dats m 0 c).arrAt_eq_of_cover 7 (result m c) (fun t _ => flushed_eq m c t) covered

/-- The kernel's run, read: the result array at the formula of the arguments as launched, the arguments unchanged. -/
theorem run : θ_run defs (onTc (τ := τ) (main (F := Ideal))) ⟨m, fun _ => 0, ρ⟩ fun r => ∀ c : Dev nD,
      r.2.mem ((c : Thread nD τ).loc main_v0)
        = written (R := 4096) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.WholeArray

end
-- ==== Proof.ReferenceFormula.lean ====
/-
  The reference's result, stage by stage, IS the erase-and-add formula on the whole batch.

  The reference transposes each [out, in] weight and contracts the control input's second axis with the transposed
  weight's first: at `(r, d)` that is `∑ₖ x(r, k) · W(d, k)`, the same sum as contracting both second axes. It spells
  the logistic function as `1 / (1 + exp (−t))`, which is its definition on the extended reals. The remaining stages
  are broadcasts read at an index and pointwise operations.
-/
import proofs.«142102_j21320217657935_1_alg».proof.Proof.Gen.ReferenceIdeal.Read
import proofs.«142102_j21320217657935_1_alg».proof.Proof.MemoryWrite
import Idealize.ShloMosaic.Lib.IdealHost

noncomputable section

namespace Cert.ReferenceIdeal.AsFormula

open Cert.ReferenceIdeal Cert.ReferenceIdeal.Read Idealize.ShloMosaic Idealize.ShloMosaic.ValueIdx Cert.MemoryWrite

/-- The reference's last stage is `MemoryWrite.written` of its seven arguments, at 4096 rows. -/
theorem result_eq (x0 : (⟨S4096x128, .f32⟩ : BufTy).Contents (Elt Ideal)) (x1 : (⟨S4096x128x128, .f32⟩ : BufTy).Contents (Elt Ideal))
    (x2 : (⟨S4096x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v30 (F := Ideal) x0 x1 x2 x3 x4 x5 x6 = written (R := 4096) x0 x1 x2 x3 x4 x5 x6 := by
  funext i
  obtain ⟨p, s, d, rfl⟩ : ∃ (p : Fin 4096) (s d : Fin 128), i = ix3 p s d := ⟨i 0, i 1, i 2, eq_ix3 i⟩
  simp only [val_main_v30_apply, val_main_v29_apply, val_main_v28_apply, val_main_v27_apply, val_main_cst_1_apply,
    val_main_v21_apply, val_main_v19_apply, val_main_v17_apply, val_main_v10_apply, val_main_v9_apply, val_main_cst_0_apply,
    val_main_v8_apply, val_main_v7_apply, val_main_cst_apply, val_main_v6_apply, val_main_v5_apply, val_main_v4_apply,
    val_main_v1_apply, val_main_v0_apply, val_main_v3_apply, val_main_v2_apply, val_main_v20_apply, val_main_v18_apply,
    val_main_v26_apply, val_main_v24_apply, val_main_v22_apply, val_main_v16_apply, val_main_v15_apply, val_main_v12_apply,
    val_main_v11_apply, val_main_v14_apply, val_main_v13_apply, val_main_v25_apply, val_main_v23_apply]
  have e1 : idx_main_v17 (idx_main_v19 (ix3 p s d)) = ix2 p d :=
    funext fun a => Fin.ext (by match a with | ⟨0, _⟩ => rfl | ⟨1, _⟩ => rfl)
  have e2 : idx_main_v22 (idx_main_v24 (ix3 p s d)) = ix2 p d :=
    funext fun a => Fin.ext (by match a with | ⟨0, _⟩ => rfl | ⟨1, _⟩ => rfl)
  have e3 : idx_main_v18 (idx_main_v20 (ix3 p s d)) = ix2 p s :=
    funext fun a => Fin.ext (by match a with | ⟨0, _⟩ => rfl | ⟨1, _⟩ => rfl)
  have e4 : idx_main_v23 (idx_main_v25 (ix3 p s d)) = ix2 p s :=
    funext fun a => Fin.ext (by match a with | ⟨0, _⟩ => rfl | ⟨1, _⟩ => rfl)
  have e5 : ∀ k : Fin 128, lidx_main_v1 (ix2 p d) k = ix2 p k := fun k =>
    funext fun a => Fin.ext (by match a with | ⟨0, _⟩ => rfl | ⟨1, _⟩ => rfl)
  have e6 : ∀ k : Fin 128, idx_main_v0 (ridx_main_v1 (ix2 p d) k) = ix2 d k := fun k =>
    funext fun a => Fin.ext (by match a with | ⟨0, _⟩ => rfl | ⟨1, _⟩ => rfl)
  have e7 : idx_main_v2 (idx_main_v3 (ix2 p d)) = ix1 d :=
    funext fun a => Fin.ext (by match a with | ⟨0, _⟩ => rfl)
  have e8 : ∀ k : Fin 128, lidx_main_v12 (ix2 p d) k = ix2 p k := fun k =>
    funext fun a => Fin.ext (by match a with | ⟨0, _⟩ => rfl | ⟨1, _⟩ => rfl)
  have e9 : ∀ k : Fin 128, idx_main_v11 (ridx_main_v12 (ix2 p d) k) = ix2 d k := fun k =>
    funext fun a => Fin.ext (by match a with | ⟨0, _⟩ => rfl | ⟨1, _⟩ => rfl)
  have e10 : idx_main_v13 (idx_main_v14 (ix2 p d)) = ix1 d :=
    funext fun a => Fin.ext (by match a with | ⟨0, _⟩ => rfl)
  simp only [e1, e2, e3, e4, e5, e6, e7, e8, e9, e10, Ideal.addf_def, Ideal.mulf_def, Ideal.subf_def, Ideal.hostDivf_def,
    Ideal.hostUnary_exp_def, Ideal.hostNegf_def, Ideal.negf_def, Ideal.hostUnary_tanh_def, Ideal.ofBits_def, Ideal.ofBits_one_f32]
  rfl

end Cert.ReferenceIdeal.AsFormula

end
-- ==== Proof.lean ====
/-
  An erase-and-add write of a slot memory: a Pallas kernel over a grid of 64 runs of 64 batch rows against plain jnp.

  Both programs compute, for batch row `r`, slot `s`, feature `d`,

      new(r, s, d) = mem(r, s, d) · (1 − σ(ℓₑ(r, d)) · w(r, s)) + tanh(ℓₐ(r, d)) · w(r, s),
      ℓ(r, d) = ∑ₖ x(r, k) · W(d, k) + b(d),

  with the operands of every product and sum in the same order. On the extended reals the two differ only in spelling:
  the kernel narrows the matrix operands to bf16 first (the identity there) and contracts the stored [out, in] weight
  along its second axis, where the reference transposes the weight and contracts its first axis — one sum over `k`;
  the kernel applies the logistic operation, the reference writes `1 / (1 + exp (−t))`, which is that operation's
  definition. No algebraic law is used, so finiteness of the inputs is never opened.

  `MemoryWrite` states the formula; `BlockValue` reads the kernel body's stored block at an entry; `WholeArray` takes
  the 64 written-back blocks to the whole result array; `ReferenceFormula` reads the reference's stages at an entry.
  The kernel's frames and the reference's run are the generated ones; the idealization rewrote nothing, so
  `preserves` is `True`.
-/
import proofs.«142102_j21320217657935_1_alg».proof.Defs
import proofs.«142102_j21320217657935_1_alg».proof.Proof.Gen.Kernel
import proofs.«142102_j21320217657935_1_alg».proof.Proof.Gen.Kernel.Skeleton
import proofs.«142102_j21320217657935_1_alg».proof.Proof.Gen.Kernel.Launch
import proofs.«142102_j21320217657935_1_alg».proof.Proof.Gen.Kernel.Points
import proofs.«142102_j21320217657935_1_alg».proof.Proof.Gen.Kernel.Frame
import proofs.«142102_j21320217657935_1_alg».proof.Proof.Gen.KernelIdeal
import proofs.«142102_j21320217657935_1_alg».proof.Proof.Gen.KernelIdeal.Skeleton
import proofs.«142102_j21320217657935_1_alg».proof.Proof.Gen.KernelIdeal.Launch
import proofs.«142102_j21320217657935_1_alg».proof.Proof.Gen.KernelIdeal.Points
import proofs.«142102_j21320217657935_1_alg».proof.Proof.Gen.KernelIdeal.Frame
import proofs.«142102_j21320217657935_1_alg».proof.Proof.Gen.ReferenceIdeal
import proofs.«142102_j21320217657935_1_alg».proof.Proof.Gen.Pre_finite_inputs
import proofs.«142102_j21320217657935_1_alg».proof.Proof.Gen.KernelIdeal.Value
import proofs.«142102_j21320217657935_1_alg».proof.Proof.Gen.ReferenceIdeal.Run
import proofs.«142102_j21320217657935_1_alg».proof.Proof.Gen.ReferenceIdeal.Read
import proofs.«142102_j21320217657935_1_alg».proof.Proof.WholeArray
import proofs.«142102_j21320217657935_1_alg».proof.Proof.ReferenceFormula
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is straight-line host code: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the erase-and-add formula of arguments that agree. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v30_eq, Cert.ReferenceIdeal.AsFormula.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
